-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S256x1024 : Shape := ⟨2, ![256, 1024]⟩
abbrev S1024x256 : Shape := ⟨2, ![1024, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_arg4 : FVec F S1024x256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S256x1024 .f32) (main_arg4 : FVec F S1024x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_v13 main_v16
-- ==== Kernel.lean ====
abbrev S8192x1024 : Shape := ⟨2, ![8192, 1024]⟩
abbrev S256x1024 : Shape := ⟨2, ![256, 1024]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S256x1024, .f32⟩
  | .hbm, ⟨4, _⟩ => ⟨S1024x256, .f32⟩
  | .hbm, ⟨5, _⟩ => ⟨S1024x256, .f32⟩
  | .hbm, ⟨6, _⟩ => ⟨S1024x256, .bf16⟩
  | .hbm, ⟨7, _⟩ => ⟨S256x1024, .f32⟩
  | .hbm, ⟨8, _⟩ => ⟨S256x1024, .bf16⟩
  | .hbm, ⟨9, _⟩ => ⟨S8192x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x256, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x1024_S1024x256_1_0 : S256x1024.Transposes [1, 0] S1024x256
  bitsLt_bf16_f32 : FTy.bits .bf16 < FTy.bits .f32
  transposes_S1024x256_S256x1024_1_0 : S1024x256.Transposes [1, 0] S256x1024
  inb_S512x1024_S512x1024_0_0 : ∀ a, (![0, 0] : Fin 2 → Nat) a + S512x1024.size a ≤ S512x1024.size a
  h_S512x1024 : 0 < S512x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where
  halias0_5 : Pipeline.Aliased win0 0 5
  halias0_6 : Pipeline.Aliased win0 1 6

variable [Facts]
-- ==== ReferenceIdeal.lean ====
abbrev S8192x1024 : Shape := ⟨2, ![8192, 1024]⟩
abbrev S256x1024 : Shape := ⟨2, ![256, 1024]⟩
abbrev S1024x256 : Shape := ⟨2, ![1024, 256]⟩
abbrev S8192x256 : Shape := ⟨2, ![8192, 256]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S256x1024, .f32⟩
  | .hbm, ⟨4, _⟩ => ⟨S1024x256, .f32⟩
  | .hbm, ⟨5, _⟩ => ⟨S8192x256, .f32⟩
  | .hbm, ⟨6, _⟩ => ⟨S8192x256, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x256, .f32⟩
  | .hbm, ⟨18, _⟩ => ⟨S8192x256, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  dot_S8192x1024_S256x1024_S8192x256_1_1_0_0_n_n_wf : DotDims.WF S8192x1024 S256x1024 S8192x256 [1] [1] [0] [0] [] []
  dot_S8192x256_S1024x256_S8192x1024_1_1_0_0_n_n_wf : DotDims.WF S8192x256 S1024x256 S8192x1024 [1] [1] [0] [0] [] []

variable [Facts₀]

def dot_S8192x1024_S256x1024_S8192x256_1_1_0_0_n_n : DotDims S8192x1024 S256x1024 S8192x256 where
  lhsContracting := [1]
  rhsContracting := [1]
  lhsNonContracting := [0]
  rhsNonContracting := [0]
  lhsBatch := []
  rhsBatch := []
  wf := dot_S8192x1024_S256x1024_S8192x256_1_1_0_0_n_n_wf
def dot_S8192x256_S1024x256_S8192x1024_1_1_0_0_n_n : DotDims S8192x256 S1024x256 S8192x1024 where
  lhsContracting := [1]
  rhsContracting := [1]
  lhsNonContracting := [0]
  rhsNonContracting := [0]
  lhsBatch := []
  rhsBatch := []
  wf := dot_S8192x256_S1024x256_S8192x1024_1_1_0_0_n_n_wf

class Facts : Prop extends Facts₀ where

variable [Facts]
-- ==== Proof.GeodesicStep.lean ====
/-
  One leapfrog step of a geodesic flow whose Christoffel symbol is a low-rank bilinear form.

  Fix a feature index set ι and a rank index set κ, factors U : κ × ι and W : ι × κ, a velocity v, a force f and a
  position x over ι, and two step sizes h (the half step) and s (the full step). With
      u_r = Σ_e v_e · U_{r,e}                      (the projection of v on the factors' rows)
      Γ(v)_d = Σ_r (u_r · u_r) · W_{d,r}           (the bilinear contraction)
  one half kick sends v to v + h·(f − Γ(v)); the step is
      v½ = v + h·(f − Γ(v)),   x' = x + s·v½,   v' = v½ + h·(f − Γ(v½)).
  A half kick can also be spelled with the product distributed, (v + h·f) − h·Γ(v). On the extended reals the
  two spellings need not agree (the product does not distribute over a difference of infinities), but they do
  as soon as h, v, f and Γ(v) are real numbers, and Γ(v) is one whenever v, U and W are: a finite sum of
  products of reals. So for real data the two spellings of the whole step agree, the second kick included,
  because the half-step velocity is again real.
-/
import Mathlib.Algebra.BigOperators.Group.Finset.Basic
import Mathlib.Algebra.BigOperators.Ring.Finset
import Mathlib.Data.EReal.Basic
import Mathlib.Data.EReal.Operations
import Mathlib.Tactic.Ring
import Idealize.ShloMosaic.PureOps.Ideal

noncomputable section

open scoped BigOperators

namespace Cert.Geodesic

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {α : Type} (s : Finset α) (g : α → EReal) (h : ∀ i ∈ s, IsReal (g i)) : IsReal (∑ i ∈ s, g i) := by
  classical
  induction s using Finset.induction_on with
  | empty => exact ⟨0, by simp⟩
  | insert i s hi ih =>
    rw [Finset.sum_insert hi]
    exact (h i (Finset.mem_insert_self i s)).add (ih fun j hj => h j (Finset.mem_insert_of_mem hj))

/-- Every extended real strictly between the infinities in absolute value is a real number. -/
theorem isReal_of_ne {x : EReal} (hb : x ≠ ⊥) (ht : x ≠ ⊤) : IsReal x := by
  induction x using EReal.rec with
  | bot => exact absurd rfl hb
  | top => exact absurd rfl ht
  | coe r => exact ⟨r, rfl⟩

/-- The f32 word of the half step, 0x3BA3D70A (the float nearest 0.005): exponent field 119, so a normal number. -/
theorem isReal_half : IsReal (Ideal.ofBits .f32 0x3BA3D70A#32) := by
  show IsReal (Ideal.ieee 8 23 (0x3BA3D70A#32))
  dsimp only [Ideal.ieee]
  rw [if_neg (by decide), if_neg (by decide)]
  exact ⟨_, rfl⟩

/-- The f32 word of the full step, 0x3C23D70A (the float nearest 0.01): exponent field 120, so a normal number. -/
theorem isReal_full : IsReal (Ideal.ofBits .f32 0x3C23D70A#32) := by
  show IsReal (Ideal.ieee 8 23 (0x3C23D70A#32))
  dsimp only [Ideal.ieee]
  rw [if_neg (by decide), if_neg (by decide)]
  exact ⟨_, rfl⟩

/-- The half step h: the float nearest 0.005. -/
abbrev halfStep : EReal := Ideal.ofBits .f32 0x3BA3D70A#32

/-- The full step s: the float nearest 0.01. -/
abbrev fullStep : EReal := Ideal.ofBits .f32 0x3C23D70A#32

variable {ι κ : Type} [Fintype ι] [Fintype κ]

/-- The projection of a velocity on the rows of U: u_r = Σ_e v_e · U_{r,e}. -/
def proj (U : κ → ι → EReal) (v : ι → EReal) (r : κ) : EReal := ∑ e, v e * U r e

/-- The bilinear contraction Γ(v)_d = Σ_r (u_r · u_r) · W_{d,r}. -/
def contraction (U : κ → ι → EReal) (W : ι → κ → EReal) (v : ι → EReal) (d : ι) : EReal :=
  ∑ r, (proj U v r * proj U v r) * W d r

/-- A half kick with the product distributed: (v + h·f) − h·Γ(v). -/
def kickSplit (h : EReal) (U : κ → ι → EReal) (W : ι → κ → EReal) (v f : ι → EReal) (d : ι) : EReal :=
  (v d + h * f d) - h * contraction U W v d

/-- A half kick with the force and the contraction taken together: v + h·(f − Γ(v)). -/
def kickJoint (h : EReal) (U : κ → ι → EReal) (W : ι → κ → EReal) (v f : ι → EReal) (d : ι) : EReal :=
  v d + h * (f d - contraction U W v d)

/-- The position after the step, from a half-step velocity: x + s·v½. -/
def drift (s : EReal) (x vh : ι → EReal) (d : ι) : EReal := x d + s * vh d

theorem proj_isReal {U : κ → ι → EReal} {v : ι → EReal} (hU : ∀ r e, IsReal (U r e)) (hv : ∀ e, IsReal (v e)) (r : κ) :
    IsReal (proj U v r) :=
  IsReal.sum _ _ fun e _ => (hv e).mul (hU r e)

theorem contraction_isReal {U : κ → ι → EReal} {W : ι → κ → EReal} {v : ι → EReal} (hU : ∀ r e, IsReal (U r e))
    (hW : ∀ d r, IsReal (W d r)) (hv : ∀ e, IsReal (v e)) (d : ι) : IsReal (contraction U W v d) :=
  IsReal.sum _ _ fun r _ => ((proj_isReal hU hv r).mul (proj_isReal hU hv r)).mul (hW d r)

/-- Among real numbers the product distributes over the difference: the two spellings of a half kick agree. -/
theorem kick_spellings {h v f g : EReal} (hh : IsReal h) (hv : IsReal v) (hf : IsReal f) (hg : IsReal g) :
    (v + h * f) - h * g = v + h * (f - g) := by
  obtain ⟨a, rfl⟩ := hh; obtain ⟨b, rfl⟩ := hv; obtain ⟨c, rfl⟩ := hf; obtain ⟨d, rfl⟩ := hg
  simp only [← EReal.coe_mul, ← EReal.coe_add, ← EReal.coe_sub]
  exact congrArg _ (by ring)

section
variable {h : EReal} {U : κ → ι → EReal} {W : ι → κ → EReal} {v f : ι → EReal}
  (hh : IsReal h) (hU : ∀ r e, IsReal (U r e)) (hW : ∀ d r, IsReal (W d r)) (hv : ∀ e, IsReal (v e)) (hf : ∀ e, IsReal (f e))
include hh hU hW hv hf

/-- For real data the two spellings of a half kick are one function. -/
theorem kickSplit_eq_kickJoint : kickSplit h U W v f = kickJoint h U W v f :=
  funext fun d => kick_spellings hh (hv d) (hf d) (contraction_isReal hU hW hv d)

/-- For real data the kicked velocity is real again. -/
theorem kickSplit_isReal (d : ι) : IsReal (kickSplit h U W v f d) :=
  ((hv d).add (hh.mul (hf d))).sub (hh.mul (contraction_isReal hU hW hv d))

/-- Two half kicks in a row: for real data the distributed spelling of both is the joint spelling of both. -/
theorem kickSplit_twice :
    kickSplit h U W (kickSplit h U W v f) f = kickJoint h U W (kickJoint h U W v f) f := by
  rw [← kickSplit_eq_kickJoint hh hU hW hv hf]
  exact kickSplit_eq_kickJoint hh hU hW (kickSplit_isReal hh hU hW hv hf) hf

end

end Cert.Geodesic

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.KernelRows.lean ====
/-
  The kernel body's two stored values, read at an index of the row block.

  A grid point holds 512 rows of v, force and x and the whole transposed factors Ut (1024 × 256, Ut_{e,r} = U_{r,e})
  and Wt (256 × 1024, Wt_{r,d} = W_{d,r}). Row p of the block never meets another row: the first matrix product
  gives u_{p,r} = Σ_e v_{p,e} · Ut_{e,r}, the second Γ_{p,d} = Σ_r (u_{p,r} · u_{p,r}) · Wt_{r,d}, and the rest is
  pointwise. So at (p, q) the half-step velocity is the distributed half kick of row p at q, the stored position is
  the drift of row p of x by it, and the stored velocity is the distributed half kick of the half-step row.
  The changes of float format between f32 and bf16 are the identity on the extended reals.
-/
import proofs.«410008_j2370821948212_3_alg».proof.Proof.Gen.KernelIdeal.Skeleton
import proofs.«410008_j2370821948212_3_alg».proof.Proof.GeodesicStep
import proofs.«410008_j2370821948212_3_alg».proof.Proof.LibPlainMatmul
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Geodesic

/-- The factors' rows from the transposed block Ut: U_{r,e} = Ut_{e,r}. -/
abbrev Urows (ut : FVec Ideal S1024x256 .bf16) : Fin 256 → Fin 1024 → EReal := fun r e => ut (ix2 e r)

/-- The factors' rows from the transposed block Wt: W_{d,r} = Wt_{r,d}. -/
abbrev Wrows (wt : FVec Ideal S256x1024 .bf16) : Fin 1024 → Fin 256 → EReal := fun d r => wt (ix2 r d)

/-- Row p of a 512 × 1024 block. -/
abbrev row (a : FVec Ideal S512x1024 .f32) (p : Fin 512) : Fin 1024 → EReal := fun e => a (ix2 p e)

/-- The first product at (p, r): the projection of row p on row r of U. -/
theorem projection_apply (v : FVec Ideal S512x1024 .f32) (ut : FVec Ideal S1024x256 .bf16) (p : Fin 512) (r : Fin 256) :
    matmul dot_S512x1024_S1024x256_S512x256_1_0_0_1_n_n none (truncf .bf16 v bitsLt_bf16_f32) ut
        (constant (F := Ideal) S512x256 .f32 0x00000000#32) (ix2 p r)
      = proj (Urows ut) (row v p) r :=
  Cert.Lib.matmul_plain_zero_apply 512 1024 256 none (truncf .bf16 v bitsLt_bf16_f32) ut (ix2 p r)

/-- The second product at (p, q), over the squared projections: the bilinear contraction of row p at q. -/
theorem contraction_apply (v : FVec Ideal S512x1024 .f32) (ut : FVec Ideal S1024x256 .bf16) (wt : FVec Ideal S256x1024 .bf16)
    (p : Fin 512) (q : Fin 1024) :
    matmul dot_S512x256_S256x1024_S512x1024_1_0_0_1_n_n none
        (truncf .bf16 (mulf
          (matmul dot_S512x1024_S1024x256_S512x256_1_0_0_1_n_n none (truncf .bf16 v bitsLt_bf16_f32) ut (constant (F := Ideal) S512x256 .f32 0x00000000#32))
          (matmul dot_S512x1024_S1024x256_S512x256_1_0_0_1_n_n none (truncf .bf16 v bitsLt_bf16_f32) ut (constant (F := Ideal) S512x256 .f32 0x00000000#32)))
          bitsLt_bf16_f32) wt
        (constant (F := Ideal) S512x1024 .f32 0x00000000#32) (ix2 p q)
      = contraction (Urows ut) (Wrows wt) (row v p) q := by
  refine (Cert.Lib.matmul_plain_zero_apply 512 256 1024 none _ wt (ix2 p q)).trans ?_
  unfold contraction
  refine Finset.sum_congr rfl fun r _ => ?_
  show (matmul dot_S512x1024_S1024x256_S512x256_1_0_0_1_n_n none (truncf .bf16 v bitsLt_bf16_f32) ut (constant (F := Ideal) S512x256 .f32 0x00000000#32) (ix2 p r)
      * matmul dot_S512x1024_S1024x256_S512x256_1_0_0_1_n_n none (truncf .bf16 v bitsLt_bf16_f32) ut (constant (F := Ideal) S512x256 .f32 0x00000000#32) (ix2 p r))
      * wt (ix2 r q) = _
  rw [projection_apply]

/-- The half-step velocity at (p, q): the distributed half kick of row p. -/
theorem halfVelocity_apply (v f : Vec Ideal S512x1024 .f32) (ut : Vec Ideal S1024x256 .bf16) (wt : Vec Ideal S256x1024 .bf16)
    (p : Fin 512) (q : Fin 1024) :
    k0_pay4 (F := Ideal) v f ut wt (ix2 p q) = kickSplit halfStep (Urows ut) (Wrows wt) (row v p) (row f p) q := by
  unfold k0_pay4 k0_pay1 k0_pay2 k0_pay3
  simp only [shapeCast_self]
  show (v (ix2 p q) + halfStep * f (ix2 p q)) - halfStep * _ = _
  rw [contraction_apply]
  rfl

/-- The stored position at (p, q): row p of x drifted by the half-step velocity. -/
theorem position_apply (v f : Vec Ideal S512x1024 .f32) (ut : Vec Ideal S1024x256 .bf16) (wt : Vec Ideal S256x1024 .bf16)
    (x : Vec Ideal S512x1024 .f32) (p : Fin 512) (q : Fin 1024) :
    k0_pay5 (F := Ideal) v f ut wt x (ix2 p q)
      = drift fullStep (row x p) (kickSplit halfStep (Urows ut) (Wrows wt) (row v p) (row f p)) q := by
  unfold k0_pay5
  show x (ix2 p q) + fullStep * k0_pay4 (F := Ideal) v f ut wt (ix2 p q) = _
  rw [halfVelocity_apply]
  rfl

/-- The stored velocity at (p, q): the distributed half kick of the half-step row. -/
theorem velocity_apply (v f : Vec Ideal S512x1024 .f32) (ut : Vec Ideal S1024x256 .bf16) (wt : Vec Ideal S256x1024 .bf16)
    (p : Fin 512) (q : Fin 1024) :
    k0_pay6 (F := Ideal) v f ut wt (ix2 p q)
      = kickSplit halfStep (Urows ut) (Wrows wt) (kickSplit halfStep (Urows ut) (Wrows wt) (row v p) (row f p)) (row f p) q := by
  unfold k0_pay6 k0_pay1 k0_pay2 k0_pay3
  simp only [shapeCast_self]
  show (k0_pay4 (F := Ideal) v f ut wt (ix2 p q) + halfStep * f (ix2 p q)) - halfStep * _ = _
  rw [contraction_apply (k0_pay4 (F := Ideal) v f ut wt) ut wt p q, halfVelocity_apply]
  have hrow : row (k0_pay4 (F := Ideal) v f ut wt) p = kickSplit halfStep (Urows ut) (Wrows wt) (row v p) (row f p) :=
    funext fun e => halfVelocity_apply v f ut wt p e
  rw [hrow]
  rfl

end Cert.KernelIdeal.Rows

end
-- ==== Proof.StepArrays.lean ====
/-
  The leapfrog step over a batch. The batch has 8192 rows of 1024 features; U is 256 × 1024 and W is 1024 × 256.
  Each row is stepped by itself: entry (b, d) of the new position is the drift of row b of x by the half-step
  velocity of row b, at d, and entry (b, d) of the new velocity is two half kicks of row b, at d. Both arrays are
  written in the two spellings of the half kick; for real velocities, forces and factors they are the same arrays.
-/
import proofs.«410008_j2370821948212_3_alg».proof.Proof.GeodesicStep
import Idealize.ShloMosaic.Lib.ValueIdx

noncomputable section

namespace Cert.Geodesic

open Idealize.ShloMosaic Idealize.ShloMosaic.ValueIdx

/-- A batch of rows: 8192 × 1024 extended reals. -/
abbrev Batch : Type := (⟨2, ![8192, 1024]⟩ : Shape).Idx → EReal
/-- The factor U: 256 × 1024. -/
abbrev FactorU : Type := (⟨2, ![256, 1024]⟩ : Shape).Idx → EReal
/-- The factor W: 1024 × 256. -/
abbrev FactorW : Type := (⟨2, ![1024, 256]⟩ : Shape).Idx → EReal

/-- Row b of a batch. -/
def rowOf (a : Batch) (b : Fin 8192) : Fin 1024 → EReal := fun e => a (ix2 b e)
/-- U by row and column. -/
def Umat (u : FactorU) : Fin 256 → Fin 1024 → EReal := fun r e => u (ix2 r e)
/-- W by row and column. -/
def Wmat (w : FactorW) : Fin 1024 → Fin 256 → EReal := fun d r => w (ix2 d r)

/-- The new position, the half kick spelled with the product distributed. -/
def positionSplit (x v f : Batch) (u : FactorU) (w : FactorW) : Batch := fun i =>
  drift fullStep (rowOf x (i 0)) (kickSplit halfStep (Umat u) (Wmat w) (rowOf v (i 0)) (rowOf f (i 0))) (i 1)

/-- The new position, the half kick spelled jointly. -/
def positionJoint (x v f : Batch) (u : FactorU) (w : FactorW) : Batch := fun i =>
  drift fullStep (rowOf x (i 0)) (kickJoint halfStep (Umat u) (Wmat w) (rowOf v (i 0)) (rowOf f (i 0))) (i 1)

/-- The new velocity, both half kicks spelled with the product distributed. -/
def velocitySplit (v f : Batch) (u : FactorU) (w : FactorW) : Batch := fun i =>
  kickSplit halfStep (Umat u) (Wmat w) (kickSplit halfStep (Umat u) (Wmat w) (rowOf v (i 0)) (rowOf f (i 0))) (rowOf f (i 0)) (i 1)

/-- The new velocity, both half kicks spelled jointly. -/
def velocityJoint (v f : Batch) (u : FactorU) (w : FactorW) : Batch := fun i =>
  kickJoint halfStep (Umat u) (Wmat w) (kickJoint halfStep (Umat u) (Wmat w) (rowOf v (i 0)) (rowOf f (i 0))) (rowOf f (i 0)) (i 1)

section
variable {x v f : Batch} {u : FactorU} {w : FactorW}
  (hv : ∀ i, IsReal (v i)) (hf : ∀ i, IsReal (f i)) (hu : ∀ i, IsReal (u i)) (hw : ∀ i, IsReal (w i))
include hv hf hu hw

/-- For real velocities, forces and factors the two spellings give one position array. -/
theorem positionSplit_eq_positionJoint : positionSplit x v f u w = positionJoint x v f u w := by
  funext i
  exact congrArg (fun vh => drift fullStep (rowOf x (i 0)) vh (i 1))
    (kickSplit_eq_kickJoint (h := halfStep) (U := Umat u) (W := Wmat w) (v := rowOf v (i 0)) (f := rowOf f (i 0))
      isReal_half (fun r e => hu (ix2 r e)) (fun d r => hw (ix2 d r)) (fun e => hv (ix2 (i 0) e)) (fun e => hf (ix2 (i 0) e)))

/-- For real velocities, forces and factors the two spellings give one velocity array. -/
theorem velocitySplit_eq_velocityJoint : velocitySplit v f u w = velocityJoint v f u w := by
  funext i
  exact congrFun
    (kickSplit_twice (h := halfStep) (U := Umat u) (W := Wmat w) (v := rowOf v (i 0)) (f := rowOf f (i 0))
      isReal_half (fun r e => hu (ix2 r e)) (fun d r => hw (ix2 d r)) (fun e => hv (ix2 (i 0) e)) (fun e => hf (ix2 (i 0) e)))
    (i 1)

end

end Cert.Geodesic

end
-- ==== Proof.KernelArrays.lean ====
/-
  From the kernel's row blocks to its two result arrays.

  The grid has 16 points; point t holds rows 512·t … 512·t + 511 of x, v and force (block index (t, 0)) and, at every
  point, the whole transposed factors (block index (0, 0)); it writes rows 512·t … 512·t + 511 of both results. The
  transposed factors are made before the launch: Ut = U transposed and Wt = W transposed, the changes of float format
  the identity. So row p of point t's block is row 512·t + p of the batch, what the point writes back is block t of
  the distributed-spelling position and velocity arrays, and since the 16 blocks tile the 8192 rows those arrays are
  what the results hold after the run.
-/
import proofs.«410008_j2370821948212_3_alg».proof.Proof.Gen.KernelIdeal.Value
import proofs.«410008_j2370821948212_3_alg».proof.Proof.KernelRows
import proofs.«410008_j2370821948212_3_alg».proof.Proof.StepArrays
import Idealize.ShloMosaic.Lib.Pipeline.Value
import Idealize.ShloMosaic.Lib.ValueIdx
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Cert.Geodesic
open Idealize.ShloMosaic.Pipeline (Dat)

variable (m : (ℓ : Loc nD τ sig) → Buf (Elt Ideal) ℓ) (ρ : Dev nD → PrngReg)

/-- The five argument arrays as launched. -/
abbrev xArr (c : Dev nD) : Batch := m ((c : Thread nD τ).loc main_arg0)
abbrev vArr (c : Dev nD) : Batch := m ((c : Thread nD τ).loc main_arg1)
abbrev fArr (c : Dev nD) : Batch := m ((c : Thread nD τ).loc main_arg2)
abbrev uArr (c : Dev nD) : FactorU := m ((c : Thread nD τ).loc main_arg3)
abbrev wArr (c : Dev nD) : FactorW := m ((c : Thread nD τ).loc main_arg4)

theorem zero_offset : (![0, 0] : Fin 2 → Nat) = fun _ => 0 := funext fun a => by fin_cases a <;> rfl

/-- The block index of every window at every point, decided over the 16 points: the row windows sit at (t, 0), the
    factor windows at (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 16 := lt_of_lt_of_eq t.isLt N_0

/-- Row p of point t's block is row 512·t + p of the batch. -/
def batchRow (t : Fin cfg0.N) (p : Fin 512) : Fin 8192 :=
  ⟨512 * t.val + p.val, by have := point_lt t; have := p.isLt; omega⟩

/-! ## The input blocks, read off the argument arrays -/

theorem xblock_row (c : Dev nD) (t : Fin cfg0.N) (p : Fin 512) :
    Rows.row (iblk m c 0 t) p = rowOf (xArr m c) (batchRow t p) := by
  funext e
  show V m c main_arg0 (((cfg0.win 0).blk t).view.emb (ix2 p e)) = m ((c : Thread nD τ).loc main_arg0) (ix2 (batchRow t p) e)
  rw [V_main_arg0]
  obtain ⟨e00, e01, -⟩ := block_index t
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * e.val = e.val; omega

theorem vblock_row (c : Dev nD) (t : Fin cfg0.N) (p : Fin 512) :
    Rows.row (iblk m c 1 t) p = rowOf (vArr m c) (batchRow t p) := by
  funext e
  show V m c main_arg1 (((cfg0.win 1).blk t).view.emb (ix2 p e)) = m ((c : Thread nD τ).loc main_arg1) (ix2 (batchRow t p) e)
  rw [V_main_arg1]
  obtain ⟨-, -, e10, e11, -⟩ := block_index t
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 1024 + 1 * e.val = e.val; omega

theorem fblock_row (c : Dev nD) (t : Fin cfg0.N) (p : Fin 512) :
    Rows.row (iblk m c 2 t) p = rowOf (fArr m c) (batchRow t p) := by
  funext e
  show V m c main_arg2 (((cfg0.win 2).blk t).view.emb (ix2 p e)) = m ((c : Thread nD τ).loc main_arg2) (ix2 (batchRow t p) e)
  rw [V_main_arg2]
  obtain ⟨-, -, -, -, e20, e21, -⟩ := block_index t
  refine congrArg _ (funext fun a => Fin.ext ?_)
  match a with
  | ⟨0, _⟩ => show win0_2.index t (0 : Fin 2) * 512 + 1 * p.val = 512 * t.val + p.val; omega
  | ⟨1, _⟩ => show win0_2.index t (1 : Fin 2) * 1024 + 1 * e.val = e.val; omega

/-- The array the first factor window stages is U transposed (the format change is the identity). -/
theorem ut_array (c : Dev nD) : (V m c main_v1 : FVec Ideal S1024x256 .bf16)
    = (truncf (F := Ideal) .bf16 (transpose S1024x256 [1, 0] (m ((c : Thread nD τ).loc main_arg3) : FVec Ideal S256x1024 .f32)
        transposes_S256x1024_S1024x256_1_0) bitsLt_bf16_f32 : FVec Ideal S1024x256 .bf16) := by
  dsimp only [Gen.V, Gen.hostOps0]
  after_results

/-- The array the second factor window stages is W transposed. -/
theorem wt_array (c : Dev nD) : (V m c main_v3 : FVec Ideal S256x1024 .bf16)
    = (truncf (F := Ideal) .bf16 (transpose S256x1024 [1, 0] (m ((c : Thread nD τ).loc main_arg4) : FVec Ideal S1024x256 .f32)
        transposes_S1024x256_S256x1024_1_0) bitsLt_bf16_f32 : FVec Ideal S256x1024 .bf16) := by
  dsimp only [Gen.V, Gen.hostOps0]
  after_results

theorem ut_entry (c : Dev nD) (e : Fin 1024) (r : Fin 256) :
    V m c main_v1 (ix2 e r) = m ((c : Thread nD τ).loc main_arg3) (ix2 r e) := by
  rw [ut_array]
  show transpose S1024x256 [1, 0] (m ((c : Thread nD τ).loc main_arg3) : FVec Ideal S256x1024 .f32) transposes_S256x1024_S1024x256_1_0 (ix2 e r) = _
  exact transpose_apply [1, 0] _ transposes_S256x1024_S1024x256_1_0 (ix2 e r) (ix2 r e)
    (fun b => by match b with | ⟨0, _⟩ => rfl | ⟨1, _⟩ => rfl)

theorem wt_entry (c : Dev nD) (r : Fin 256) (d : Fin 1024) :
    V m c main_v3 (ix2 r d) = m ((c : Thread nD τ).loc main_arg4) (ix2 d r) := by
  rw [wt_array]
  show transpose S256x1024 [1, 0] (m ((c : Thread nD τ).loc main_arg4) : FVec Ideal S1024x256 .f32) transposes_S1024x256_S256x1024_1_0 (ix2 r d) = _
  exact transpose_apply [1, 0] _ transposes_S1024x256_S256x1024_1_0 (ix2 r d) (ix2 d r)
    (fun b => by match b with | ⟨0, _⟩ => rfl | ⟨1, _⟩ => rfl)

theorem ublock_rows (c : Dev nD) (t : Fin cfg0.N) : Rows.Urows (iblk m c 3 t) = Umat (uArr m c) := by
  funext r e
  show V m c main_v1 (((cfg0.win 3).blk t).view.emb (ix2 e r)) = m ((c : Thread nD τ).loc main_arg3) (ix2 r e)
  obtain ⟨-, -, -, -, -, -, e30, e31, -⟩ := block_index t
  have hemb : ((cfg0.win 3).blk t).view.emb (ix2 e r) = ix2 e r := funext fun a => Fin.ext (by
    match a with
    | ⟨0, _⟩ => show win0_3.index t (0 : Fin 2) * 1024 + 1 * e.val = e.val; omega
    | ⟨1, _⟩ => show win0_3.index t (1 : Fin 2) * 256 + 1 * r.val = r.val; omega)
  rw [hemb]
  exact ut_entry m c e r

theorem wblock_rows (c : Dev nD) (t : Fin cfg0.N) : Rows.Wrows (iblk m c 4 t) = Wmat (wArr m c) := by
  funext d r
  show V m c main_v3 (((cfg0.win 4).blk t).view.emb (ix2 r d)) = m ((c : Thread nD τ).loc main_arg4) (ix2 d r)
  obtain ⟨-, -, -, -, -, -, -, -, e40, e41, -⟩ := block_index t
  have hemb : ((cfg0.win 4).blk t).view.emb (ix2 r d) = ix2 r d := funext fun a => Fin.ext (by
    match a with
    | ⟨0, _⟩ => show win0_4.index t (0 : Fin 2) * 256 + 1 * r.val = r.val; omega
    | ⟨1, _⟩ => show win0_4.index t (1 : Fin 2) * 1024 + 1 * d.val = d.val; omega)
  rw [hemb]
  exact wt_entry m c r d

/-! ## What a point writes back -/

/-- Point t writes back block t of the distributed-spelling position array. -/
theorem flushed_position (c : Dev nD) (t : Fin cfg0.N) :
    (dats m 0 c).flushed 5 t = ((cfg0.win 5).blk t).view.read (Elt Ideal)
      (positionSplit (xArr m c) (vArr m c) (fArr m c) (uArr m c) (wArr m c)) := by
  rw [Value.flushed5]
  unfold out0_5
  rw [View.canon_unit_zero zero_offset]
  simp only [View.ld_unit_zero (S := S512x1024) zero_offset, View.ld_unit_zero (S := S1024x256) zero_offset,
    View.ld_unit_zero (S := S256x1024) zero_offset]
  funext y
  obtain ⟨p, q, rfl⟩ : ∃ (p : Fin 512) (q : Fin 1024), y = ix2 p q := ⟨y 0, y 1, eq_ix2 y⟩
  show k0_pay5 (F := Ideal) (iblk m c 1 t) (iblk m c 2 t) (iblk m c 3 t) (iblk m c 4 t) (iblk m c 0 t) (ix2 p q)
    = positionSplit (xArr m c) (vArr m c) (fArr m c) (uArr m c) (wArr m c) (((cfg0.win 5).blk t).view.emb (ix2 p q))
  refine (Rows.position_apply (iblk m c 1 t) (iblk m c 2 t) (iblk m c 3 t) (iblk m c 4 t) (iblk m c 0 t) p q).trans ?_
  rw [xblock_row, vblock_row, fblock_row, ublock_rows, wblock_rows]
  obtain ⟨-, -, -, -, -, -, -, -, -, -, e50, e51, -⟩ := block_index t
  have h0 : (((cfg0.win 5).blk t).view.emb (ix2 p q)) 0 = batchRow t p :=
    Fin.ext (by show win0_5.index t (0 : Fin 2) * 512 + 1 * p.val = 512 * t.val + p.val; omega)
  have h1 : (((cfg0.win 5).blk t).view.emb (ix2 p q)) 1 = q :=
    Fin.ext (by show win0_5.index t (1 : Fin 2) * 1024 + 1 * q.val = q.val; omega)
  unfold positionSplit
  rw [h0, h1]

/-- Point t writes back block t of the distributed-spelling velocity array. -/
theorem flushed_velocity (c : Dev nD) (t : Fin cfg0.N) :
    (dats m 0 c).flushed 6 t = ((cfg0.win 6).blk t).view.read (Elt Ideal)
      (velocitySplit (vArr m c) (fArr m c) (uArr m c) (wArr m c)) := by
  rw [Value.flushed6]
  unfold out0_6
  rw [View.canon_unit_zero zero_offset]
  simp only [View.ld_unit_zero (S := S512x1024) zero_offset, View.ld_unit_zero (S := S1024x256) zero_offset,
    View.ld_unit_zero (S := S256x1024) zero_offset]
  funext y
  obtain ⟨p, q, rfl⟩ : ∃ (p : Fin 512) (q : Fin 1024), y = ix2 p q := ⟨y 0, y 1, eq_ix2 y⟩
  show k0_pay6 (F := Ideal) (iblk m c 1 t) (iblk m c 2 t) (iblk m c 3 t) (iblk m c 4 t) (ix2 p q)
    = velocitySplit (vArr m c) (fArr m c) (uArr m c) (wArr m c) (((cfg0.win 6).blk t).view.emb (ix2 p q))
  refine (Rows.velocity_apply (iblk m c 1 t) (iblk m c 2 t) (iblk m c 3 t) (iblk m c 4 t) p q).trans ?_
  rw [vblock_row, fblock_row, ublock_rows, wblock_rows]
  obtain ⟨-, -, -, -, -, -, -, -, -, -, -, -, e60, e61⟩ := block_index t
  have h0 : (((cfg0.win 6).blk t).view.emb (ix2 p q)) 0 = batchRow t p :=
    Fin.ext (by show win0_6.index t (0 : Fin 2) * 512 + 1 * p.val = 512 * t.val + p.val; omega)
  have h1 : (((cfg0.win 6).blk t).view.emb (ix2 p q)) 1 = q :=
    Fin.ext (by show win0_6.index t (1 : Fin 2) * 1024 + 1 * q.val = q.val; omega)
  unfold velocitySplit
  rw [h0, h1]

/-! ## The 16 blocks tile the results -/

theorem mem_position_block (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v4_0).slice (win0_5.rect t)).set ↔ _
  rw [View.set_slice_whole, Rect.mem_set_unit]
  exact Iff.rfl

theorem mem_velocity_block (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v4_1).slice (win0_6.rect t)).set ↔ _
  rw [View.set_slice_whole, Rect.mem_set_unit]
  exact Iff.rfl

/-- The point whose block holds row r: r / 512. -/
def pointOf (i : S8192x1024.Idx) : Fin cfg0.N :=
  ⟨(i 0).val / 512, by have h : (i 0).val < 8192 := (i 0).isLt; show _ < grid0.N; rw [N_0]; omega⟩

theorem position_cover (i : S8192x1024.Idx) :
    ∃ t : Fin cfg0.N, (cfg0.win 5).flush t = true ∧ i ∈ ((cfg0.win 5).blk t).view.set := by
  refine ⟨pointOf i, flush0_5 _, ?_⟩
  rw [mem_position_block]
  obtain ⟨-, -, -, -, -, -, -, -, -, -, e50, e51, -⟩ := block_index (pointOf i)
  have ht : (pointOf i).val = (i 0).val / 512 := rfl
  have hi1 : (i 1).val < 1024 := (i 1).isLt
  intro a
  match a with
  | ⟨0, _⟩ =>
    show win0_5.index (pointOf i) (0 : Fin 2) * 512 ≤ (i 0).val ∧ (i 0).val < win0_5.index (pointOf i) (0 : Fin 2) * 512 + 512
    omega
  | ⟨1, _⟩ =>
    show win0_5.index (pointOf i) (1 : Fin 2) * 1024 ≤ (i 1).val ∧ (i 1).val < win0_5.index (pointOf i) (1 : Fin 2) * 1024 + 1024
    omega

theorem velocity_cover (i : S8192x1024.Idx) :
    ∃ t : Fin cfg0.N, (cfg0.win 6).flush t = true ∧ i ∈ ((cfg0.win 6).blk t).view.set := by
  refine ⟨pointOf i, flush0_6 _, ?_⟩
  rw [mem_velocity_block]
  obtain ⟨-, -, -, -, -, -, -, -, -, -, -, -, e60, e61⟩ := block_index (pointOf i)
  have ht : (pointOf i).val = (i 0).val / 512 := rfl
  have hi1 : (i 1).val < 1024 := (i 1).isLt
  intro a
  match a with
  | ⟨0, _⟩ =>
    show win0_6.index (pointOf i) (0 : Fin 2) * 512 ≤ (i 0).val ∧ (i 0).val < win0_6.index (pointOf i) (0 : Fin 2) * 512 + 512
    omega
  | ⟨1, _⟩ =>
    show win0_6.index (pointOf i) (1 : Fin 2) * 1024 ≤ (i 1).val ∧ (i 1).val < win0_6.index (pointOf i) (1 : Fin 2) * 1024 + 1024
    omega

/-! ## The result arrays, and the run -/

/-- After the run the first result holds the distributed-spelling position array of the arguments. -/
theorem final_position (c : Dev nD) :
    (dats m 0 c).arrAt 5 cfg0.N = positionSplit (xArr m c) (vArr m c) (fArr m c) (uArr m c) (wArr m c) :=
  (dats m 0 c).arrAt_eq_of_cover 5 _ (fun t _ => flushed_position m c t) position_cover

/-- After the run the second result holds the distributed-spelling velocity array of the arguments. -/
theorem final_velocity (c : Dev nD) :
    (dats m 0 c).arrAt 6 cfg0.N = velocitySplit (vArr m c) (fArr m c) (uArr m c) (wArr m c) :=
  (dats m 0 c).arrAt_eq_of_cover 6 _ (fun t _ => flushed_velocity m c t) velocity_cover

/-- Every weakly fair execution of the kernel program ends with the two results at those arrays and the arguments
    unchanged. -/
theorem run : θ_run defs (onTc (τ := τ) (main (F := Ideal))) ⟨m, fun _ => 0, ρ⟩ fun r => ∀ c : Dev nD,
      r.2.mem ((c : Thread nD τ).loc main_v4_0) = positionSplit (xArr m c) (vArr m c) (fArr m c) (uArr m c) (wArr m c)
      ∧ r.2.mem ((c : Thread nD τ).loc main_v4_1) = velocitySplit (vArr m c) (fArr m c) (uArr m c) (wArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_position m c), (h c).2.1.trans (final_velocity m c), (h c).2.2⟩)
    (Value.run_blocks m ρ)

end Cert.KernelIdeal.Arrays

end
-- ==== Proof.ReferenceRows.lean ====
/-
  The reference program's two results, read at an index.

  The reference contracts v with U along the feature axis (u_{b,r} = Σ_e v_{b,e} · U_{r,e}), squares, contracts with
  W along the rank axis (Γ_{b,d} = Σ_r (u_{b,r} · u_{b,r}) · W_{d,r}), and kicks with the force and the contraction
  taken together: v½ = v + h·(f − Γ(v)). Entry (b, d) of each stage depends on row b only, so the position result
  is the jointly spelled position array and the velocity result the jointly spelled velocity array.
-/
import proofs.«410008_j2370821948212_3_alg».proof.Proof.Gen.ReferenceIdeal.Read
import proofs.«410008_j2370821948212_3_alg».proof.Proof.StepArrays

noncomputable section

namespace Cert.ReferenceIdeal.Rows

open Cert.ReferenceIdeal Cert.ReferenceIdeal.Read Idealize.ShloMosaic Idealize.ShloMosaic.ValueIdx Cert.Geodesic

/-! The contracted operands' indices: the left operand is read at (row of the result, k), the right at (column of the
    result, k), in all four contractions. -/

theorem lidx0 (i : S8192x256.Idx) (k : Fin 1024) : lidx_main_v0 i k = ix2 (i 0) k :=
  funext fun a => Fin.ext (by match a with | ⟨0, _⟩ => rfl | ⟨1, _⟩ => rfl)
theorem ridx0 (i : S8192x256.Idx) (k : Fin 1024) : ridx_main_v0 i k = ix2 (i 1) k :=
  funext fun a => Fin.ext (by match a with | ⟨0, _⟩ => rfl | ⟨1, _⟩ => rfl)
theorem lidx2 (i : S8192x1024.Idx) (k : Fin 256) : lidx_main_v2 i k = ix2 (i 0) k :=
  funext fun a => Fin.ext (by match a with | ⟨0, _⟩ => rfl | ⟨1, _⟩ => rfl)
theorem ridx2 (i : S8192x1024.Idx) (k : Fin 256) : ridx_main_v2 i k = ix2 (i 1) k :=
  funext fun a => Fin.ext (by match a with | ⟨0, _⟩ => rfl | ⟨1, _⟩ => rfl)
theorem lidx10 (i : S8192x256.Idx) (k : Fin 1024) : lidx_main_v10 i k = ix2 (i 0) k :=
  funext fun a => Fin.ext (by match a with | ⟨0, _⟩ => rfl | ⟨1, _⟩ => rfl)
theorem ridx10 (i : S8192x256.Idx) (k : Fin 1024) : ridx_main_v10 i k = ix2 (i 1) k :=
  funext fun a => Fin.ext (by match a with | ⟨0, _⟩ => rfl | ⟨1, _⟩ => rfl)
theorem lidx12 (i : S8192x1024.Idx) (k : Fin 256) : lidx_main_v12 i k = ix2 (i 0) k :=
  funext fun a => Fin.ext (by match a with | ⟨0, _⟩ => rfl | ⟨1, _⟩ => rfl)
theorem ridx12 (i : S8192x1024.Idx) (k : Fin 256) : ridx_main_v12 i k = ix2 (i 1) k :=
  funext fun a => Fin.ext (by match a with | ⟨0, _⟩ => rfl | ⟨1, _⟩ => rfl)

variable (x v f : Batch) (u : FactorU) (w : FactorW)

/-- The first contraction at (b, r): the projection of row b of v on row r of U. -/
theorem projection_apply (b : Fin 8192) (r : Fin 256) :
    val_main_v0 (F := Ideal) v u (ix2 b r) = proj (Umat u) (rowOf v b) r := by
  rw [val_main_v0_apply]
  simp only [lidx0, ridx0]
  rfl

/-- The second contraction at (b, d): the bilinear contraction of row b at d. -/
theorem contraction_apply (b : Fin 8192) (d : Fin 1024) :
    val_main_v2 (F := Ideal) v u w (ix2 b d) = contraction (Umat u) (Wmat w) (rowOf v b) d := by
  rw [val_main_v2_apply]
  unfold contraction
  refine Finset.sum_congr rfl fun r _ => ?_
  rw [lidx2, ridx2]
  show (val_main_v0 (F := Ideal) v u (ix2 b r) * val_main_v0 (F := Ideal) v u (ix2 b r)) * w (ix2 d r) = _
  rw [projection_apply]
  rfl

/-- The half-step velocity at (b, d): the joint half kick of row b. -/
theorem halfVelocity_apply (b : Fin 8192) (d : Fin 1024) :
    val_main_v6 (F := Ideal) v f u w (ix2 b d) = kickJoint halfStep (Umat u) (Wmat w) (rowOf v b) (rowOf f b) d := by
  rw [val_main_v6_apply, val_main_v5_apply, val_main_v4_apply, val_main_cst_apply, val_main_v3_apply, contraction_apply]
  rfl

/-- The half-step velocity's row b is the joint half kick of row b. -/
theorem halfVelocity_row (b : Fin 8192) :
    rowOf (val_main_v6 (F := Ideal) v f u w) b = kickJoint halfStep (Umat u) (Wmat w) (rowOf v b) (rowOf f b) :=
  funext fun e => halfVelocity_apply v f u w b e

/-- THE POSITION RESULT is the jointly spelled position array. -/
theorem position_eq : val_main_v9 (F := Ideal) x v f u w = positionJoint x v f u w := by
  funext i
  obtain ⟨b, d, rfl⟩ : ∃ (b : Fin 8192) (d : Fin 1024), i = ix2 b d := ⟨i 0, i 1, eq_ix2 i⟩
  rw [val_main_v9_apply, val_main_v8_apply, val_main_v7_apply, val_main_cst_0_apply, halfVelocity_apply]
  rfl

/-- The third contraction at (b, r): the projection of the half-step row b on row r of U. -/
theorem projection_half_apply (b : Fin 8192) (r : Fin 256) :
    val_main_v10 (F := Ideal) v f u w (ix2 b r)
      = proj (Umat u) (kickJoint halfStep (Umat u) (Wmat w) (rowOf v b) (rowOf f b)) r := by
  rw [val_main_v10_apply, ← halfVelocity_row]
  simp only [lidx10, ridx10]
  rfl

/-- The fourth contraction at (b, d): the bilinear contraction of the half-step row b at d. -/
theorem contraction_half_apply (b : Fin 8192) (d : Fin 1024) :
    val_main_v12 (F := Ideal) v f u w (ix2 b d)
      = contraction (Umat u) (Wmat w) (kickJoint halfStep (Umat u) (Wmat w) (rowOf v b) (rowOf f b)) d := by
  rw [val_main_v12_apply]
  unfold contraction
  refine Finset.sum_congr rfl fun r _ => ?_
  rw [lidx12, ridx12]
  show (val_main_v10 (F := Ideal) v f u w (ix2 b r) * val_main_v10 (F := Ideal) v f u w (ix2 b r)) * w (ix2 d r) = _
  rw [projection_half_apply]
  rfl

/-- THE VELOCITY RESULT is the jointly spelled velocity array. -/
theorem velocity_eq : val_main_v16 (F := Ideal) v f u w = velocityJoint v f u w := by
  funext i
  obtain ⟨b, d, rfl⟩ : ∃ (b : Fin 8192) (d : Fin 1024), i = ix2 b d := ⟨i 0, i 1, eq_ix2 i⟩
  rw [val_main_v16_apply, val_main_v15_apply, val_main_v14_apply, val_main_cst_1_apply, val_main_v13_apply,
    contraction_half_apply, halfVelocity_apply]
  rfl

end Cert.ReferenceIdeal.Rows

end
-- ==== Proof.FiniteInputs.lean ====
/-
  What the precondition says of the inputs: every entry of x, v, force, U and W is a real number.

  The precondition is the conjunction, over the five inputs, of "every entry a satisfies |a| < +∞", each conjunct an
  all-reduction by "and" of the elementwise test, the bound the f32 word of +∞. On the extended reals |a| is
  max a (−a); it is below +∞ exactly when a is neither infinity, that is, when a is a real number.
-/
import proofs.«410008_j2370821948212_3_alg».proof.Pre_finite_inputs
import proofs.«410008_j2370821948212_3_alg».proof.Proof.GeodesicStep
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Reals

open Idealize.ShloMosaic Cert.Pre_finite_inputs Cert.Geodesic

/-- The f32 word 0x7F800000 (exponent field all ones, significand zero, sign clear) denotes +∞. -/
theorem top_word : Ideal.ofBits .f32 0x7F800000#32 = ⊤ := by
  simp [Ideal.ofBits, Ideal.ieee]

/-- An extended real whose absolute value max x (−x) is strictly below +∞ is a real number. -/
theorem isReal_of_abs_lt_top (x : EReal) (h : Ideal.cmp .olt (max x (-x)) ⊤ = 1#1) : IsReal x := by
  have hlt : max x (-x) < ⊤ := by
    by_contra hn
    simp [Ideal.cmp, hn] at h
  refine isReal_of_ne ?_ ?_
  · rintro rfl
    simp at hlt
  · rintro rfl
    simp at hlt

/-- A scalar result has one index. -/
instance : Subsingleton S_.Idx := ⟨fun a b => funext fun d => d.elim0⟩

/-- One entry passing the test |a| < +∞, the bound broadcast from the scalar word, is a real number. -/
theorem isReal_of_entry {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    IsReal (a i) := by
  have hb' : broadcastInDim s ![] hb (constant (F := Ideal) S_ .f32 0x7F800000#32) i = ⊤ := by
    rw [broadcastInDim_apply _ hb _ i ValueIdx.ix0 (fun a => a.elim0)]
    exact top_word
  have h' : Ideal.cmp .olt (max (a i) (-(a i))) (broadcastInDim s ![] hb (constant (F := Ideal) S_ .f32 0x7F800000#32) i) = 1#1 := h
  rw [hb'] at h'
  exact isReal_of_abs_lt_top _ h'

variable [Facts]
open Facts

/-- Under the precondition every entry of every input is a real number. -/
theorem reals_of_finite (a0 a1 a2 : FVec Ideal S8192x1024 .f32) (a3 : FVec Ideal S256x1024 .f32) (a4 : FVec Ideal S1024x256 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => isReal_of_entry bcast_S_S8192x1024 a0 i (Host.reduce_andi_all _ _ reducesTo_S8192x1024_S_d0_1 h_S_ ValueIdx.ix0 e0 i),
    fun i => isReal_of_entry bcast_S_S8192x1024 a1 i (Host.reduce_andi_all _ _ reducesTo_S8192x1024_S_d0_1 h_S_ ValueIdx.ix0 e1 i),
    fun i => isReal_of_entry bcast_S_S8192x1024 a2 i (Host.reduce_andi_all _ _ reducesTo_S8192x1024_S_d0_1 h_S_ ValueIdx.ix0 e2 i),
    fun i => isReal_of_entry bcast_S_S256x1024 a3 i (Host.reduce_andi_all _ _ reducesTo_S256x1024_S_d0_1 h_S_ ValueIdx.ix0 e3 i),
    fun i => isReal_of_entry bcast_S_S1024x256 a4 i (Host.reduce_andi_all _ _ reducesTo_S1024x256_S_d0_1 h_S_ ValueIdx.ix0 e4 i)⟩

end Cert.Pre_finite_inputs.Reals

end
-- ==== Proof.lean ====
/-
  One leapfrog step of a geodesic flow with a low-rank Christoffel symbol, as a row-tiled kernel and as a whole-array
  reference, computes the same position and velocity over the reals.

  Both programs form u = v·Uᵀ, Γ(v) = (u ∘ u)·Wᵀ, the half-step velocity v½ = v + h·(f − Γ(v)), the new position
  x + s·v½ and the new velocity v½ + h·(f − Γ(v½)), with the same two step words h and s. They differ in one place:
  the kernel distributes the half step, (v + h·f) − h·Γ(v), where the reference keeps h·(f − Γ(v)). The product
  distributes over the difference among real numbers but not among infinities, and the precondition says every
  entry of every input is finite; then Γ(v) is a finite sum of products of real numbers, v½ is real again, and the
  two spellings agree for both kicks. The kernel's row blocks tile the batch, each row being stepped by itself, so
  its two results are the distributed-spelling arrays; the reference's stages, read at an index, give the
  joint-spelling arrays. No operation was rewritten in idealizing the kernel, so that conjunct is trivial.
-/
import proofs.«410008_j2370821948212_3_alg».proof.Defs
import proofs.«410008_j2370821948212_3_alg».proof.Proof.Gen.Kernel
import proofs.«410008_j2370821948212_3_alg».proof.Proof.Gen.Kernel.Skeleton
import proofs.«410008_j2370821948212_3_alg».proof.Proof.Gen.Kernel.Launch
import proofs.«410008_j2370821948212_3_alg».proof.Proof.Gen.Kernel.Points
import proofs.«410008_j2370821948212_3_alg».proof.Proof.Gen.Kernel.Frame
import proofs.«410008_j2370821948212_3_alg».proof.Proof.Gen.KernelIdeal
import proofs.«410008_j2370821948212_3_alg».proof.Proof.Gen.KernelIdeal.Skeleton
import proofs.«410008_j2370821948212_3_alg».proof.Proof.Gen.KernelIdeal.Launch
import proofs.«410008_j2370821948212_3_alg».proof.Proof.Gen.KernelIdeal.Points
import proofs.«410008_j2370821948212_3_alg».proof.Proof.Gen.KernelIdeal.Frame
import proofs.«410008_j2370821948212_3_alg».proof.Proof.Gen.ReferenceIdeal
import proofs.«410008_j2370821948212_3_alg».proof.Proof.Gen.Pre_finite_inputs
import proofs.«410008_j2370821948212_3_alg».proof.Proof.Gen.KernelIdeal.Value
import proofs.«410008_j2370821948212_3_alg».proof.Proof.Gen.ReferenceIdeal.Run
import proofs.«410008_j2370821948212_3_alg».proof.Proof.Gen.ReferenceIdeal.Read
import proofs.«410008_j2370821948212_3_alg».proof.Proof.KernelArrays
import proofs.«410008_j2370821948212_3_alg».proof.Proof.ReferenceRows
import proofs.«410008_j2370821948212_3_alg».proof.Proof.FiniteInputs
import Idealize.ShloMosaic.Adequacy
import Idealize.ShloMosaic.Init

noncomputable section

namespace Cert.Proof

open Idealize.ShloMosaic Idealize.SL.Sem Cert.Geodesic

/-- The kernel program as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of whole-array operations: it runs, and its arguments are never written. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten in reading it over the extended reals. -/
theorem preserves : Cert.preserves_Kernel_KernelIdeal := trivial

/-- From arguments that agree and are finite, the kernel ends with the distributed-spelling position and velocity
    arrays and the reference with the joint-spelling ones: the same arrays, every entry being a real number. -/
theorem algebraic : Cert.algebraic_KernelIdeal_ReferenceIdeal := by
  intro m ρ m' ρ' hpre hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨-, hv, hf, hu, hw⟩ := Cert.Pre_finite_inputs.Reals.reals_of_finite _ _ _ _ _ (hpre c)
    rw [Cert.ReferenceIdeal.Read.val_main_v9_eq, Cert.ReferenceIdeal.Rows.position_eq, (hagree c).1, (hagree c).2.1,
      (hagree c).2.2.1, (hagree c).2.2.2.1, (hagree c).2.2.2.2]
    exact (positionSplit_eq_positionJoint hv hf hu hw).symm
  · obtain ⟨-, hv, hf, hu, hw⟩ := Cert.Pre_finite_inputs.Reals.reals_of_finite _ _ _ _ _ (hpre c)
    rw [Cert.ReferenceIdeal.Read.val_main_v16_eq, Cert.ReferenceIdeal.Rows.velocity_eq, (hagree c).2.1,
      (hagree c).2.2.1, (hagree c).2.2.2.1, (hagree c).2.2.2.2]
    exact (velocitySplit_eq_velocityJoint hv hf hu hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
